-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S1x192 : Shape := ⟨2, ![1, 192]⟩
abbrev S800000 : Shape := ⟨1, ![800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S1x192 : S_.BroadcastsInDim S1x192 (![] : Fin 0 → Fin S1x192.rank)
  reducesTo_S1x192_S_d0_1 : S1x192.ReducesTo [0, 1] S_

variable [Facts]

def fn {F : FTy → Type} [FloatOps F] (main_arg0 : FVec F S50000x96 .f32) (main_arg1 : FVec F S50000x96 .f32) (main_arg2 : FVec F S1x192 .f32) (main_arg3 : IVec S800000 32) (main_arg4 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x96 .f32 := Host.absf main_arg1
  let main_cst_0 : FVec F S_ .f32 := constant S_ .f32 0x7F800000#32
  let main_v5 : FVec F S50000x96 .f32 := broadcastInDim S50000x96 ![] bcast_S_S50000x96 main_cst_0
  let main_v6 : IVec S50000x96 1 := cmpf .olt main_v4 main_v5
  let main_c_1 : IVec S_ 1 := constantI S_ 1 1#1
  let main_v7 : IVec S_ 1 := (fun x v => Host.reduce IntOp.andi x v reducesTo_S50000x96_S_d0_1 h_S_) main_v6 main_c_1
  let main_v8 : IVec S_ 1 := andi main_v3 main_v7
  let main_v9 : FVec F S1x192 .f32 := Host.absf main_arg2
  let main_cst_2 : FVec F S_ .f32 := constant S_ .f32 0x7F800000#32
  let main_v10 : FVec F S1x192 .f32 := broadcastInDim S1x192 ![] bcast_S_S1x192 main_cst_2
  let main_v11 : IVec S1x192 1 := cmpf .olt main_v9 main_v10
  let main_c_3 : IVec S_ 1 := constantI S_ 1 1#1
  let main_v12 : IVec S_ 1 := (fun x v => Host.reduce IntOp.andi x v reducesTo_S1x192_S_d0_1 h_S_) main_v11 main_c_3
  let main_v13 : IVec S_ 1 := andi main_v8 main_v12
  main_v13
-- ==== Kernel.lean ====
abbrev S50000x96 : Shape := ⟨2, ![50000, 96]⟩
abbrev S1x192 : Shape := ⟨2, ![1, 192]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x96 : Shape := ⟨2, ![5000, 96]⟩
abbrev S5000x1 : Shape := ⟨2, ![5000, 1]⟩
abbrev S800000x96 : Shape := ⟨2, ![800000, 96]⟩
abbrev S1x96 : Shape := ⟨2, ![1, 96]⟩
abbrev S5000 : Shape := ⟨1, ![5000]⟩

abbrev nBuf : Space → Nat
  | .hbm => 34
  | .vmem => 17
  | .smem => 0
  | _ => 0

abbrev bufTy : (tb : Table) → Fin (tcTables nBuf tb) → BufTy
  | .hbm, ⟨0, _⟩ => ⟨S50000x96, .f32⟩
  | .hbm, ⟨1, _⟩ => ⟨S50000x96, .f32⟩
  | .hbm, ⟨2, _⟩ => ⟨S1x192, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x96, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x96, .f32⟩
  | .hbm, ⟨29, _⟩ => ⟨S_, .f32⟩
  | .hbm, ⟨30, _⟩ => ⟨S50000x96, .f32⟩
  | .hbm, ⟨31, _⟩ => ⟨S800000x1, .i32⟩
  | .hbm, ⟨32, _⟩ => ⟨S50000x96, .f32⟩
  | .hbm, ⟨33, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x1, .f32⟩
  | .local _ .vmem, ⟨3, _⟩ => ⟨S5000x1, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x1, .f32⟩
  | .local _ .vmem, ⟨11, _⟩ => ⟨S5000x1, .f32⟩
  | .local _ .vmem, ⟨12, _⟩ => ⟨S5000x96, .f32⟩
  | .local _ .vmem, ⟨13, _⟩ => ⟨S5000x96, .f32⟩
  | .local _ .vmem, ⟨14, _⟩ => ⟨S1x192, .f32⟩
  | .local _ .vmem, ⟨15, _⟩ => ⟨S5000x96, .f32⟩
  | .local _ .vmem, ⟨16, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x96_S5000x96_0_0 : ∀ a, (![0, 0] : Fin 2 → Nat) a + S5000x96.size a ≤ S5000x96.size a
  h_S5000x96 : 0 < S5000x96.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  bcast_S_S50000x96 : S_.BroadcastsInDim S50000x96 (![] : Fin 0 → Fin S50000x96.rank)
  shapeCasts_S5000x96_S5000x96 : S5000x96.ShapeCasts S5000x96
  inb_S1x192_S1x192_0_0 : ∀ a, (![0, 0] : Fin 2 → Nat) a + S1x192.size a ≤ S1x192.size a
  h_S1x192 : 0 < S1x192.numel
  slices_S1x192_o0_0_S1x96 : S1x192.Slices ![0, 0] S1x96
  slices_S1x192_o0_96_S1x96 : S1x192.Slices ![0, 96] S1x96
  broadcasts_S1x96_S5000x96 : S1x96.Broadcasts S5000x96
  reduces_S5000x96_S5000 : S5000x96.Reduces [1] S5000
  shapeCasts_S5000_S5000x1 : S5000.ShapeCasts S5000x1
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S5000x96.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S1x192 : Shape := ⟨2, ![1, 192]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S50000x192 : Shape := ⟨2, ![50000, 192]⟩
abbrev S192x1 : Shape := ⟨2, ![192, 1]⟩

abbrev nBuf : Space → Nat
  | .hbm => 50
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x96, .f32⟩
  | .hbm, ⟨2, _⟩ => ⟨S1x192, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x96, .f32⟩
  | .hbm, ⟨20, _⟩ => ⟨S50000x96, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x96, .f32⟩
  | .hbm, ⟨30, _⟩ => ⟨S_, .f32⟩
  | .hbm, ⟨31, _⟩ => ⟨S50000x96, .f32⟩
  | .hbm, ⟨32, _⟩ => ⟨S800000x1, .i32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S50000x192, .f32⟩
  | .hbm, ⟨37, _⟩ => ⟨S192x1, .f32⟩
  | .hbm, ⟨38, _⟩ => ⟨S50000x1, .f32⟩
  | .hbm, ⟨39, _⟩ => ⟨S50000x1, .f32⟩
  | .hbm, ⟨40, _⟩ => ⟨S50000x1, .f32⟩
  | .hbm, ⟨41, _⟩ => ⟨S_, .f32⟩
  | .hbm, ⟨42, _⟩ => ⟨S50000x1, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x96, .f32⟩
  | .hbm, ⟨48, _⟩ => ⟨S50000x96, .f32⟩
  | .hbm, ⟨49, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  concatenates_S50000x96_S50000x96_S50000x192_d1 : Shape.Concatenates [S50000x96, S50000x96] S50000x192 1
  transposes_S1x192_S192x1_1_0 : S1x192.Transposes [1, 0] S192x1
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x192_S192x1_S50000x1_1_0_0_1_n_n_wf : DotDims.WF S50000x192 S192x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x1_S50000x1_1_0_0_1_n_n : DotDims S50000x192 S192x1 S50000x1 where
  lhsContracting := [1]
  rhsContracting := [0]
  lhsNonContracting := [0]
  rhsNonContracting := [1]
  lhsBatch := []
  rhsBatch := []
  wf := dot_S50000x192_S192x1_S50000x1_1_0_0_1_n_n_wf

class Facts : Prop extends Facts₀ where

variable [Facts]
-- ==== Proof.GateSpec.lean ====
/-
  One layer of a degree-normalised graph convolution with an attention gate, as functions of whole arrays over the
  extended reals.  For a node `i` with feature row `x i`, aggregated row `g i`, normaliser `n i`, residual row `r i` and
  a weight row `a` of 192 entries, the layer's output row is
      σ( Σ_k x[i,k]·a[k]  +  Σ_k (g[i,k]·n[i])·a[96+k] ) · (g[i,·]·n[i]) + r[i,·],
  with σ the logistic function.  `scaleRows` is the row scaling that precedes the aggregation.  Both are stated for any
  number of rows, so that the same formula reads a block of 5000 rows and the array of 50000.

  The one algebraic fact used: a sum over 192 terms is the sum of its first 96 and its last 96 terms, which holds in any
  commutative monoid and so on the extended reals with their infinities.
-/
import Idealize.ShloMosaic.Lib.ValueIdx
import Idealize.ShloMosaic.PureOps.Ideal
import Mathlib.Algebra.BigOperators.Fin

noncomputable section

namespace GraphGate

open Idealize.ShloMosaic Idealize.ShloMosaic.ValueIdx

/-- Row scaling: entry `(i, j)` of `x` times row `i`'s normaliser. -/
def scaleRows {R : ℕ} (x : (⟨2, ![R, 96]⟩ : Shape).Idx → EReal) (n : (⟨2, ![R, 1]⟩ : Shape).Idx → EReal) :
    (⟨2, ![R, 96]⟩ : Shape).Idx → EReal :=
  fun i => x i * n (ix2 (⟨(i 0).val, idx2_lt0 i⟩ : Fin R) (0 : Fin 1))

/-- The gate's logit of row `p`: the feature row against the first 96 weights plus the normalised aggregated row
    against the last 96. -/
def logit {R : ℕ} (x g : (⟨2, ![R, 96]⟩ : Shape).Idx → EReal) (n : (⟨2, ![R, 1]⟩ : Shape).Idx → EReal)
    (a : (⟨2, ![1, 192]⟩ : Shape).Idx → EReal) (p : Fin R) : EReal :=
  (∑ k : Fin 96, x (ix2 p k) * a (ix2 (0 : Fin 1) (⟨k.val, by have := k.isLt; omega⟩ : Fin 192)))
    + ∑ k : Fin 96, (g (ix2 p k) * n (ix2 p (0 : Fin 1))) * a (ix2 (0 : Fin 1) (⟨96 + k.val, by have := k.isLt; omega⟩ : Fin 192))

/-- The gated, residual output: `σ(logit i) · (g i j · n i) + r i j`. -/
def gateRows {R : ℕ} (x g : (⟨2, ![R, 96]⟩ : Shape).Idx → EReal) (n : (⟨2, ![R, 1]⟩ : Shape).Idx → EReal)
    (r : (⟨2, ![R, 96]⟩ : Shape).Idx → EReal) (a : (⟨2, ![1, 192]⟩ : Shape).Idx → EReal) :
    (⟨2, ![R, 96]⟩ : Shape).Idx → EReal :=
  fun i => Ideal.logistic (logit x g n a (⟨(i 0).val, idx2_lt0 i⟩ : Fin R)) * (g i * n (ix2 (⟨(i 0).val, idx2_lt0 i⟩ : Fin R) (0 : Fin 1))) + r i

/-- The scaled entry at explicit coordinates. -/
theorem scaleRows_ix2 {R : ℕ} (x : (⟨2, ![R, 96]⟩ : Shape).Idx → EReal) (n : (⟨2, ![R, 1]⟩ : Shape).Idx → EReal)
    (p : Fin R) (q : Fin 96) : scaleRows x n (ix2 p q) = x (ix2 p q) * n (ix2 p (0 : Fin 1)) := rfl

/-- The gated entry at explicit coordinates. -/
theorem gateRows_ix2 {R : ℕ} (x g : (⟨2, ![R, 96]⟩ : Shape).Idx → EReal) (n : (⟨2, ![R, 1]⟩ : Shape).Idx → EReal)
    (r : (⟨2, ![R, 96]⟩ : Shape).Idx → EReal) (a : (⟨2, ![1, 192]⟩ : Shape).Idx → EReal) (p : Fin R) (q : Fin 96) :
    gateRows x g n r a (ix2 p q)
      = Ideal.logistic (logit x g n a p) * (g (ix2 p q) * n (ix2 p (0 : Fin 1))) + r (ix2 p q) := rfl

/-- A sum of 192 terms in a commutative monoid splits into its first and its last 96 terms. -/
theorem sum_192_split {M : Type*} [AddCommMonoid M] (f : Fin 192 → M) :
    ∑ k : Fin 192, f k
      = (∑ k : Fin 96, f ⟨k.val, by have := k.isLt; omega⟩) + ∑ k : Fin 96, f ⟨96 + k.val, by have := k.isLt; omega⟩ := by
  have h := Fin.sum_univ_add (a := 96) (b := 96) (f := fun i : Fin (96 + 96) => f ⟨i.val, i.isLt⟩)
  exact h

end GraphGate

end
-- ==== Proof.Payload.lean ====
/-
  What the two kernel bodies compute, entry by entry, on the extended reals.

  The scaling body multiplies a block of 5000 feature rows by the block's column of normalisers: entry `(p, q)` is
  `x[p,q] · n[p]`.  The gating body forms, for each row `p` of a block, the normalised aggregated row `h[p,·] = g[p,·]·n[p]`,
  the logit  Σ_k x[p,k]·a[k] + Σ_k h[p,k]·a[96+k]  as two lane sums (an add-reduction into a zero accumulator is a plain sum),
  its logistic, and the entry `σ(logit p)·h[p,q] + r[p,q]`: the block-sized instance of `GraphGate.gateRows`.
-/
import proofs.«160684_j26834955666032_1_alg».proof.Proof.Gen.KernelIdeal.Skeleton
import proofs.«160684_j26834955666032_1_alg».proof.Proof.GateSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx

/-- A column of 5000 entries broadcast over 96 lanes reads, at `(p, q)`, row `p`'s one entry. -/
theorem bcast_col (v : FVec Ideal S5000x1 .f32) (p : Fin 5000) (q : Fin 96) :
    broadcastTo S5000x96 v broadcasts_S5000x1_S5000x96 (ix2 p q) = v (ix2 p (0 : Fin 1)) := by
  refine broadcastTo_apply v broadcasts_S5000x1_S5000x96 (ix2 p q) (ix2 p (0 : Fin 1)) fun ax => ?_
  match ax with
  | ⟨0, _⟩ => show p.val = if (5000 : ℕ) = 1 then 0 else p.val; rw [if_neg (by decide)]
  | ⟨1, _⟩ => show 0 = if (1 : ℕ) = 1 then 0 else q.val; rw [if_pos rfl]

/-- A vector of 5000 entries recast as a column reads, at `(p, 0)`, its entry `p`. -/
theorem cast_col (v : FVec Ideal S5000 .f32) (p : Fin 5000) :
    shapeCast S5000x1 v shapeCasts_S5000_S5000x1 (ix2 p (0 : Fin 1)) = v (ix1 p) := by
  refine shapeCast_apply v shapeCasts_S5000_S5000x1 (ix2 p (0 : Fin 1)) (ix1 p) ?_
  rw [Shape.rowMajor_val_one, Shape.rowMajor_val_two]
  show p.val = p.val * 1 + 0
  omega

/-- A lane sum of a block into a zero accumulator reads, at row `p`, the sum of the row's 96 entries. -/
theorem lane_sum (v : FVec Ideal S5000x96 .f32) (hφ : FKind.Formats .f32)
    (hacc : (0x00000000#32 : BitVec 32) = 0x00000000#32) (p : Fin 5000) :
    multiReduction .add [1] S5000 v 0x00000000#32 reduces_S5000x96_S5000 hφ hacc (ix1 p)
      = ∑ k : Fin 96, v (ix2 p k) := by
  refine (Ideal.multiReduction_add_single v 0x00000000#32 reduces_S5000x96_S5000 hφ hacc (ix1 p)).trans ?_
  show ∑ k : Fin 96, v (reduces_S5000x96_S5000.lift (ix1 p) k) = _
  refine Finset.sum_congr rfl fun k _ => congrArg v ?_
  funext a
  match a with
  | ⟨0, _⟩ => exact Fin.ext rfl
  | ⟨1, _⟩ => exact Fin.ext rfl

/-- A lane sum recast as a column reads, at `(p, 0)`, row `p`'s sum. -/
theorem col_sum (v : FVec Ideal S5000x96 .f32) (hφ : FKind.Formats .f32)
    (hacc : (0x00000000#32 : BitVec 32) = 0x00000000#32) (p : Fin 5000) :
    shapeCast S5000x1 (multiReduction .add [1] S5000 v 0x00000000#32 reduces_S5000x96_S5000 hφ hacc)
        shapeCasts_S5000_S5000x1 (ix2 p (0 : Fin 1))
      = ∑ k : Fin 96, v (ix2 p k) :=
  (cast_col _ p).trans (lane_sum v hφ hacc p)

/-- The normalised aggregated block: entry `(p, q)` of the aggregated block times row `p`'s normaliser. -/
theorem hrow (g : FVec Ideal S5000x96 .f32) (n : FVec Ideal S5000x1 .f32) (p : Fin 5000) (q : Fin 96) :
    mulf (shapeCast S5000x96 g shapeCasts_S5000x96_S5000x96)
        (broadcastTo S5000x96 (shapeCast S5000x1 n shapeCasts_S5000x1_S5000x1) broadcasts_S5000x1_S5000x96) (ix2 p q)
      = g (ix2 p q) * n (ix2 p (0 : Fin 1)) := by
  rw [mulf_apply, shapeCast_self, shapeCast_self, bcast_col]

/-- The first 96 weights, broadcast over the rows. -/
theorem weights_lo (a : FVec Ideal S1x192 .f32) (p : Fin 5000) (k : Fin 96) :
    broadcastTo S5000x96 (extractStridedSlice S1x96 ![0, 0] a slices_S1x192_o0_0_S1x96) broadcasts_S1x96_S5000x96 (ix2 p k)
      = a (ix2 (0 : Fin 1) (⟨k.val, by have := k.isLt; omega⟩ : Fin 192)) := by
  rw [broadcastTo_1b_ab_apply]
  exact slice2_axis1_apply 0 a slices_S1x192_o0_0_S1x96 (0 : Fin 1) k ⟨k.val, by have := k.isLt; omega⟩ (by simp)

/-- The last 96 weights, broadcast over the rows. -/
theorem weights_hi (a : FVec Ideal S1x192 .f32) (p : Fin 5000) (k : Fin 96) :
    broadcastTo S5000x96 (extractStridedSlice S1x96 ![0, 96] a slices_S1x192_o0_96_S1x96) broadcasts_S1x96_S5000x96 (ix2 p k)
      = a (ix2 (0 : Fin 1) (⟨96 + k.val, by have := k.isLt; omega⟩ : Fin 192)) := by
  rw [broadcastTo_1b_ab_apply]
  exact slice2_axis1_apply 96 a slices_S1x192_o0_96_S1x96 (0 : Fin 1) k ⟨96 + k.val, by have := k.isLt; omega⟩ rfl

/-- The logistic of a column, entry by entry. -/
theorem logistic_apply (v : FVec Ideal S5000x1 .f32) (i : S5000x1.Idx) : logistic v i = Ideal.logistic (v i) := rfl

/-- The scaling body's stored value: the block's rows scaled by the block's normalisers. -/
theorem scale_pay (x : Vec Ideal S5000x96 .f32) (n : Vec Ideal S5000x1 .f32) :
    k0_pay1 x n = GraphGate.scaleRows (R := 5000) x n := by
  funext j
  obtain ⟨p, q, rfl⟩ : ∃ (p : Fin 5000) (q : Fin 96), j = ix2 p q := ⟨j 0, j 1, eq_ix2 j⟩
  rw [GraphGate.scaleRows_ix2]
  unfold k0_pay1
  rw [mulf_apply, shapeCast_self, bcast_col]

/-- The gating body's stored value: the gated, residual rows of the block. -/
theorem gate_pay (x g : Vec Ideal S5000x96 .f32) (n : Vec Ideal S5000x1 .f32) (a : Vec Ideal S1x192 .f32)
    (r : Vec Ideal S5000x96 .f32) :
    k1_pay1 x g n a r = GraphGate.gateRows (R := 5000) x g n r a := by
  funext j
  obtain ⟨p, q, rfl⟩ : ∃ (p : Fin 5000) (q : Fin 96), j = ix2 p q := ⟨j 0, j 1, eq_ix2 j⟩
  rw [GraphGate.gateRows_ix2]
  unfold k1_pay1 GraphGate.logit
  refine (addf_apply _ _ _).trans ?_
  refine congrArg (· + r (ix2 p q)) ?_
  refine (mulf_apply _ _ _).trans ?_
  refine congrArg₂ (· * ·) ?_ (hrow g n p q)
  refine (bcast_col _ p q).trans ?_
  refine (logistic_apply _ _).trans ?_
  refine congrArg Ideal.logistic ?_
  refine (addf_apply _ _ _).trans ?_
  refine congrArg₂ (· + ·) ((col_sum _ _ _ p).trans ?_) ((col_sum _ _ _ p).trans ?_)
  · refine Finset.sum_congr rfl fun k _ => ?_
    rw [mulf_apply, weights_lo]
  · refine Finset.sum_congr rfl fun k _ => ?_
    rw [mulf_apply, hrow, weights_hi]

end Cert.KernelIdeal.Rows

end
-- ==== Proof.RegionValues.lean ====
/-
  What each of the two kernel regions leaves in its output array, as one function of the arrays the region finds on entry.

  Both regions walk the 50000 rows in ten blocks of 5000: block `t` of every row-indexed window is rows `5000·t … 5000·t + 4999` of
  its array (all 96 lanes, or the one normaliser column), and the weight row is the same whole block at every point.  So
  what point `t` writes back is block `t` of the whole-array function — the row scaling for the first region, the gated
  residual rows for the second — and the ten blocks tile the output array.
-/
import proofs.«160684_j26834955666032_1_alg».proof.Proof.Gen.KernelIdeal.Frame
import proofs.«160684_j26834955666032_1_alg».proof.Proof.Payload
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `5000·t + p` of the array. -/
def rowAt (t : ℕ) (ht : t < 10) (p : Fin 5000) : Fin 50000 := ⟨5000 * t + p.val, by have := p.isLt; omega⟩

theorem lt0 (t : Fin cfg0.N) : t.val < 10 := by have := t.isLt; have h : cfg0.N = 10 := N_0; omega
theorem lt1 (t : Fin cfg1.N) : t.val < 10 := by have := t.isLt; have h : cfg1.N = 10 := N_1; omega

/-! ## The first region: rows scaled by their normalisers -/

/-- Every window of the first region is at block row `t`, block column `0`, at point `t`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem blk0_x (c : Dev nD) (t : Fin cfg0.N) (p : Fin 5000) (q : Fin 96) :
    (iblk0 V c 0 t : Vec Ideal S5000x96 .f32) (ix2 p q)
      = (V c main_arg0 : S50000x96.Idx → Elt Ideal .f32) (ix2 (rowAt t.val (lt0 t) p) q) := by
  obtain ⟨e0, e1, -⟩ := idx0 t
  show V c main_arg0 (((cfg0.win 0).blk t).view.emb (ix2 p q)) = _
  refine congrArg (V c main_arg0) ?_
  funext a; apply Fin.ext
  match a with
  | ⟨0, _⟩ => show win0_0.index t (0 : Fin 2) * 5000 + 1 * p.val = 5000 * t.val + p.val; omega
  | ⟨1, _⟩ => show win0_0.index t (1 : Fin 2) * 96 + 1 * q.val = q.val; omega

theorem blk0_n (c : Dev nD) (t : Fin cfg0.N) (p : Fin 5000) :
    (iblk0 V c 1 t : Vec Ideal S5000x1 .f32) (ix2 p (0 : Fin 1))
      = (V c main_v7 : S50000x1.Idx → Elt Ideal .f32) (ix2 (rowAt t.val (lt0 t) p) (0 : Fin 1)) := by
  obtain ⟨-, -, e0, e1, -⟩ := idx0 t
  show V c main_v7 (((cfg0.win 1).blk t).view.emb (ix2 p (0 : Fin 1))) = _
  refine congrArg (V c main_v7) ?_
  funext a; apply Fin.ext
  match a with
  | ⟨0, _⟩ => show win0_1.index t (0 : Fin 2) * 5000 + 1 * p.val = 5000 * t.val + p.val; omega
  | ⟨1, _⟩ => show win0_1.index t (1 : Fin 2) * 1 + 1 * 0 = 0; omega

theorem emb0 (t : Fin cfg0.N) (p : Fin 5000) (q : Fin 96) :
    ((cfg0.win 2).blk t).view.emb (ix2 p q) = (ix2 (rowAt t.val (lt0 t) p) q : S50000x96.Idx) := by
  obtain ⟨-, -, -, -, e0, e1⟩ := idx0 t
  funext a; apply Fin.ext
  match a with
  | ⟨0, _⟩ => show win0_2.index t (0 : Fin 2) * 5000 + 1 * p.val = 5000 * t.val + p.val; omega
  | ⟨1, _⟩ => show win0_2.index t (1 : Fin 2) * 96 + 1 * q.val = q.val; omega

/-- What point `t` of the first region writes back is block `t` of the scaled rows. -/
theorem flushed0 (c : Dev nD) (t : Fin cfg0.N) :
    (dat0 V c).flushed 2 t = ((cfg0.win 2).blk t).view.read (Elt Ideal)
      (GraphGate.scaleRows (R := 50000) (V c main_arg0) (V c main_v7)) := by
  show (cfg0.win 2).cut (grid0.coords t) ((dat0 V c).after 2 t) = _
  rw [after0_2]
  unfold out0_2
  rw [View.canon_unit_zero hz]
  simp only [View.ld_unit_zero (S := S5000x96) hz, View.ld_unit_zero (S := S5000x1) hz]
  rw [Rows.scale_pay]
  funext j
  obtain ⟨p, q, rfl⟩ : ∃ (p : Fin 5000) (q : Fin 96), j = ix2 p q := ⟨j 0, j 1, eq_ix2 j⟩
  show GraphGate.scaleRows (R := 5000) (iblk0 V c 0 t) (iblk0 V c 1 t) (ix2 p q)
    = GraphGate.scaleRows (R := 50000) (V c main_arg0) (V c main_v7) (((cfg0.win 2).blk t).view.emb (ix2 p q))
  rw [emb0, GraphGate.scaleRows_ix2, GraphGate.scaleRows_ix2, blk0_x, blk0_n]

theorem mem_blk0 (t : Fin cfg0.N) (i : S50000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v8).slice (win0_2.rect t)).set ↔ _
  rw [View.set_slice_whole, Rect.mem_set_unit]
  exact Iff.rfl

/-- Row `i` lies in block `i / 5000`: the ten blocks tile the array. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e0, e1⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 96 ≤ (i 1).val ∧ (i 1).val < win0_2.index t (1 : Fin 2) * 96 + 96
    omega

/-- The first region's output array after its run: the rows it found, scaled by the normalisers it found. -/
theorem final0 (c : Dev nD) :
    (dat0 V c).arrAt 2 cfg0.N = GraphGate.scaleRows (R := 50000) (V c main_arg0) (V c main_v7) :=
  (dat0 V c).arrAt_eq_of_cover 2 _ (fun t _ => flushed0 V c t) (fun i => cover0 i)

/-! ## The second region: the gate and the residual -/

/-- The row-indexed windows of the second region are at block row `t`, block column `0`, at point `t`; the weight row's
    window stays at its one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blk1_x (c : Dev nD) (t : Fin cfg1.N) (p : Fin 5000) (q : Fin 96) :
    (iblk1 V c 0 t : Vec Ideal S5000x96 .f32) (ix2 p q)
      = (V c main_arg0 : S50000x96.Idx → Elt Ideal .f32) (ix2 (rowAt t.val (lt1 t) p) q) := by
  obtain ⟨e0, e1, -⟩ := idx1 t
  show V c main_arg0 (((cfg1.win 0).blk t).view.emb (ix2 p q)) = _
  refine congrArg (V c main_arg0) ?_
  funext a; apply Fin.ext
  match a with
  | ⟨0, _⟩ => show win1_0.index t (0 : Fin 2) * 5000 + 1 * p.val = 5000 * t.val + p.val; omega
  | ⟨1, _⟩ => show win1_0.index t (1 : Fin 2) * 96 + 1 * q.val = q.val; omega

theorem blk1_g (c : Dev nD) (t : Fin cfg1.N) (p : Fin 5000) (q : Fin 96) :
    (iblk1 V c 1 t : Vec Ideal S5000x96 .f32) (ix2 p q)
      = (V c main_v18 : S50000x96.Idx → Elt Ideal .f32) (ix2 (rowAt t.val (lt1 t) p) q) := by
  obtain ⟨-, -, e0, e1, -⟩ := idx1 t
  show V c main_v18 (((cfg1.win 1).blk t).view.emb (ix2 p q)) = _
  refine congrArg (V c main_v18) ?_
  funext a; apply Fin.ext
  match a with
  | ⟨0, _⟩ => show win1_1.index t (0 : Fin 2) * 5000 + 1 * p.val = 5000 * t.val + p.val; omega
  | ⟨1, _⟩ => show win1_1.index t (1 : Fin 2) * 96 + 1 * q.val = q.val; omega

theorem blk1_n (c : Dev nD) (t : Fin cfg1.N) (p : Fin 5000) :
    (iblk1 V c 2 t : Vec Ideal S5000x1 .f32) (ix2 p (0 : Fin 1))
      = (V c main_v7 : S50000x1.Idx → Elt Ideal .f32) (ix2 (rowAt t.val (lt1 t) p) (0 : Fin 1)) := by
  obtain ⟨-, -, -, -, e0, e1, -⟩ := idx1 t
  show V c main_v7 (((cfg1.win 2).blk t).view.emb (ix2 p (0 : Fin 1))) = _
  refine congrArg (V c main_v7) ?_
  funext a; apply Fin.ext
  match a with
  | ⟨0, _⟩ => show win1_2.index t (0 : Fin 2) * 5000 + 1 * p.val = 5000 * t.val + p.val; omega
  | ⟨1, _⟩ => show win1_2.index t (1 : Fin 2) * 1 + 1 * 0 = 0; omega

theorem blk1_r (c : Dev nD) (t : Fin cfg1.N) (p : Fin 5000) (q : Fin 96) :
    (iblk1 V c 3 t : Vec Ideal S5000x96 .f32) (ix2 p q)
      = (V c main_arg1 : S50000x96.Idx → Elt Ideal .f32) (ix2 (rowAt t.val (lt1 t) p) q) := by
  obtain ⟨-, -, -, -, -, -, e0, e1, -⟩ := idx1 t
  show V c main_arg1 (((cfg1.win 3).blk t).view.emb (ix2 p q)) = _
  refine congrArg (V c main_arg1) ?_
  funext a; apply Fin.ext
  match a with
  | ⟨0, _⟩ => show win1_3.index t (0 : Fin 2) * 5000 + 1 * p.val = 5000 * t.val + p.val; omega
  | ⟨1, _⟩ => show win1_3.index t (1 : Fin 2) * 96 + 1 * q.val = q.val; omega

theorem blk1_a (c : Dev nD) (t : Fin cfg1.N) (k : Fin 192) :
    (iblk1 V c 4 t : Vec Ideal S1x192 .f32) (ix2 (0 : Fin 1) k)
      = (V c main_arg2 : S1x192.Idx → Elt Ideal .f32) (ix2 (0 : Fin 1) k) := by
  obtain ⟨-, -, -, -, -, -, -, -, e0, e1, -⟩ := idx1 t
  show V c main_arg2 (((cfg1.win 4).blk t).view.emb (ix2 (0 : Fin 1) k)) = _
  refine congrArg (V c main_arg2) ?_
  funext a; apply Fin.ext
  match a with
  | ⟨0, _⟩ => show win1_4.index t (0 : Fin 2) * 1 + 1 * 0 = 0; omega
  | ⟨1, _⟩ => show win1_4.index t (1 : Fin 2) * 192 + 1 * k.val = k.val; omega

theorem emb1 (t : Fin cfg1.N) (p : Fin 5000) (q : Fin 96) :
    ((cfg1.win 5).blk t).view.emb (ix2 p q) = (ix2 (rowAt t.val (lt1 t) p) q : S50000x96.Idx) := by
  obtain ⟨-, -, -, -, -, -, -, -, -, -, e0, e1⟩ := idx1 t
  funext a; apply Fin.ext
  match a with
  | ⟨0, _⟩ => show win1_5.index t (0 : Fin 2) * 5000 + 1 * p.val = 5000 * t.val + p.val; omega
  | ⟨1, _⟩ => show win1_5.index t (1 : Fin 2) * 96 + 1 * q.val = q.val; omega

/-- What point `t` of the second region writes back is block `t` of the gated residual rows. -/
theorem flushed1 (c : Dev nD) (t : Fin cfg1.N) :
    (dat1 V c).flushed 5 t = ((cfg1.win 5).blk t).view.read (Elt Ideal)
      (GraphGate.gateRows (R := 50000) (V c main_arg0) (V c main_v18) (V c main_v7) (V c main_arg1) (V c main_arg2)) := by
  show (cfg1.win 5).cut (grid1.coords t) ((dat1 V c).after 5 t) = _
  rw [after1_5]
  unfold out1_5
  rw [View.canon_unit_zero hz]
  simp only [View.ld_unit_zero (S := S5000x96) hz, View.ld_unit_zero (S := S5000x1) hz, View.ld_unit_zero (S := S1x192) hz]
  rw [Rows.gate_pay]
  funext j
  obtain ⟨p, q, rfl⟩ : ∃ (p : Fin 5000) (q : Fin 96), j = ix2 p q := ⟨j 0, j 1, eq_ix2 j⟩
  show GraphGate.gateRows (R := 5000) (iblk1 V c 0 t) (iblk1 V c 1 t) (iblk1 V c 2 t) (iblk1 V c 3 t) (iblk1 V c 4 t) (ix2 p q)
    = GraphGate.gateRows (R := 50000) (V c main_arg0) (V c main_v18) (V c main_v7) (V c main_arg1) (V c main_arg2)
        (((cfg1.win 5).blk t).view.emb (ix2 p q))
  rw [emb1, GraphGate.gateRows_ix2, GraphGate.gateRows_ix2]
  unfold GraphGate.logit
  simp only [blk1_x, blk1_g, blk1_n, blk1_r, blk1_a]

theorem mem_blk1 (t : Fin cfg1.N) (i : S50000x96.Idx) :
    i ∈ ((cfg1.win 5).blk t).view.set ↔ ∀ a : Fin 2, win1_5.index t a * S5000x96.size a ≤ (i a).val
      ∧ (i a).val < win1_5.index t a * S5000x96.size a + S5000x96.size a := by
  show i ∈ ((View.whole main_v19).slice (win1_5.rect t)).set ↔ _
  rw [View.set_slice_whole, Rect.mem_set_unit]
  exact Iff.rfl

theorem cover1 (i : S50000x96.Idx) :
    ∃ t : Fin cfg1.N, (cfg1.win 5).flush t = true ∧ i ∈ ((cfg1.win 5).blk t).view.set := by
  have hi0 : (i 0).val < 50000 := (i 0).isLt
  have hi1 : (i 1).val < 96 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, e0, e1⟩ := idx1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 96 ≤ (i 1).val ∧ (i 1).val < win1_5.index t (1 : Fin 2) * 96 + 96
    omega

/-- The second region's output array after its run: the gated residual rows of the arrays it found. -/
theorem final1 (c : Dev nD) :
    (dat1 V c).arrAt 5 cfg1.N
      = GraphGate.gateRows (R := 50000) (V c main_arg0) (V c main_v18) (V c main_v7) (V c main_arg1) (V c main_arg2) :=
  (dat1 V c).arrAt_eq_of_cover 5 _ (fun t _ => flushed1 V c t) (fun i => cover1 i)

end Cert.KernelIdeal.Regions

end
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.KernelValue.lean ====
/-
  The kernel program's result array as one function of the five arguments.

  The program computes, on the host, the column of normalisers `n = max(1, deg)^(-1/2)` from the in-degrees of the destination
  indices; its first region scales the feature rows by `n`; the host gathers the scaled rows at the source indices and adds
  them into the destination rows; its second region applies the gate and the residual.  Reading the contents at each
  boundary of the run back to the launch memory gives the result as
      gateRows x (aggregate (scaleRows x n) src dst) n r a        with  n = normCol dst.
  The two index-driven host stretches are kept as the opaque functions `normCol` and `aggregate`: the reference applies the
  same operations to the same operands, so nothing about their values is needed.
-/
import proofs.«160684_j26834955666032_1_alg».proof.Proof.Gen.KernelIdeal.Frame
import proofs.«160684_j26834955666032_1_alg».proof.Proof.RegionValues
import proofs.«160684_j26834955666032_1_alg».proof.Proof.LibTRef
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Idealize.ShloMosaic.Pipeline (Dat)

/-- The normaliser column: the in-degree of every node (ones added at the destination indices), clamped below at one,
    to the power `-1/2`, as a column. -/
def normCol (dst : (⟨S800000, .i32⟩ : BufTy).Contents (Elt Ideal)) : (⟨S50000x1, .f32⟩ : BufTy).Contents (Elt Ideal) :=
  broadcastInDim S50000x1 ![0] bcast_S50000_S50000x1_0
    (Host.powf
      (maximumf (broadcastInDim S50000 ![] bcast_S_S50000 (constant (F := Ideal) S_ .f32 0x3F800000#32))
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32))))
      (broadcastInDim S50000 ![] bcast_S_S50000 (constant (F := Ideal) S_ .f32 0xBF000000#32)))

/-- The aggregation: the rows of `h` gathered at the (wrapped) source indices and added into the destination rows of a
    zero array. -/
def aggregate (h : (⟨S50000x96, .f32⟩ : BufTy).Contents (Elt Ideal)) (src dst : (⟨S800000, .i32⟩ : BufTy).Contents (Elt Ideal)) :
    (⟨S50000x96, .f32⟩ : BufTy).Contents (Elt Ideal) :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (Host.gather gather_S50000x96_S800000x1_S800000x96_1_0_n_n_0_1_196 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt Ideal) ℓ) (ρ : Dev nD → PrngReg)

/-! ## The first region's entry: the features as launched, the normalisers computed -/

/-- The clamp is a called function: its operand and result buffers carry their contents at the buffers' own types, which
    are the values' types, so the transports in and out are the identity. -/
theorem clamp_in (h1 h2 h3) (X : (⟨S50000, .f32⟩ : BufTy).Contents (Elt Ideal)) :
    (TRef.of (T := ⟨S50000, .f32⟩) main_v3 h1 h2 h3).ofBuf X = X := rfl
theorem clamp_lo (h1 h2 h3) (X : (⟨S_, .f32⟩ : BufTy).Contents (Elt Ideal)) :
    (TRef.of (T := ⟨S_, .f32⟩) main_cst_1 h1 h2 h3).ofBuf X = X := rfl
theorem clamp_out (h1 h2 h3) (X : (⟨S50000, .f32⟩ : BufTy).Contents (Elt Ideal)) :
    (TRef.of (T := ⟨S50000, .f32⟩) main_v4 h1 h2 h3).toBuf X = X := rfl

theorem V3_x (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results

theorem V3_n (c : Dev nD) : V3 m ρ c main_v7 = normCol (m ((c : Thread nD τ).loc main_arg4)) := by
  show StableHlo.after hostOps0_2 (StableHlo.after hostOps0_1 (StableHlo.after hostOps0 (W0 m ρ c))) (Proc.devRef .tc main_v7) = _
  simp only [hostOps0_2, hostOps0_1, hostOps0]
  after_results
  simp only [TRef.ofBuf_toBuf, clamp_in, clamp_lo, clamp_out]
  rfl

/-! ## The first region's exit -/

/-- The scaled rows. -/
theorem W4_h (c : Dev nD) : W4 m ρ c (Proc.devRef .tc main_v8)
    = GraphGate.scaleRows (R := 50000) (m ((c : Thread nD τ).loc main_arg0)) (normCol (m ((c : Thread nD τ).loc main_arg4))) := by
  refine (W4_arr m ρ c 2).trans ((Regions.final0 (V3 m ρ) c).trans ?_)
  rw [V3_x, V3_n]

/-- The normalisers pass through the first region (it only reads them). -/
theorem W4_n (c : Dev nD) : W4 m ρ c (Proc.devRef .tc main_v7) = normCol (m ((c : Thread nD τ).loc main_arg4)) :=
  (W4_arr m ρ c 1).trans ((((dat0 (V3 m ρ) c).arrAt_in 1 rfl _).trans (A_eq0 (V3 m ρ) c 1)).trans (V3_n m ρ c))

theorem W4_src (c : Dev nD) : W4 m ρ c (Proc.devRef .tc main_arg3) = m ((c : Thread nD τ).loc main_arg3) := by
  rw [W4_of_ne m ρ c main_arg3 (by decide)]
  show StableHlo.after hostOps0_2 (StableHlo.after hostOps0_1 (StableHlo.after hostOps0 (W0 m ρ c))) (Proc.devRef .tc main_arg3) = _
  simp only [hostOps0_2, hostOps0_1, hostOps0]
  after_results

theorem W4_dst (c : Dev nD) : W4 m ρ c (Proc.devRef .tc main_arg4) = m ((c : Thread nD τ).loc main_arg4) := by
  rw [W4_of_ne m ρ c main_arg4 (by decide)]
  show StableHlo.after hostOps0_2 (StableHlo.after hostOps0_1 (StableHlo.after hostOps0 (W0 m ρ c))) (Proc.devRef .tc main_arg4) = _
  simp only [hostOps0_2, hostOps0_1, hostOps0]
  after_results

/-! ## The second region's entry -/

/-- The aggregated rows. -/
theorem V5_g (c : Dev nD) : V5 m ρ c main_v18
    = aggregate (GraphGate.scaleRows (R := 50000) (m ((c : Thread nD τ).loc main_arg0)) (normCol (m ((c : Thread nD τ).loc main_arg4))))
        (m ((c : Thread nD τ).loc main_arg3)) (m ((c : Thread nD τ).loc main_arg4)) := by
  show StableHlo.after hostOps1 (W4 m ρ c) (Proc.devRef .tc main_v18) = _
  simp only [hostOps1]
  after_results
  rw [W4_h, W4_src, W4_dst]
  rfl

theorem V5_n (c : Dev nD) : V5 m ρ c main_v7 = normCol (m ((c : Thread nD τ).loc main_arg4)) := by
  show StableHlo.after hostOps1 (W4 m ρ c) (Proc.devRef .tc main_v7) = _
  simp only [hostOps1]
  after_results
  exact W4_n m ρ c

/-- An argument the second region reads through a window is, at its entry, what the run ends with there: the argument
    as launched. -/
theorem V5_x (c : Dev nD) : V5 m ρ c main_arg0 = m ((c : Thread nD τ).loc main_arg0) :=
  ((A_eq1 (V5 m ρ) c 0).symm.trans (((dat1 (V5 m ρ) c).arrAt_in 0 rfl _).symm.trans (W6_arr m ρ c 0).symm)).trans
    (W6_main_arg0 m ρ c)
theorem V5_r (c : Dev nD) : V5 m ρ c main_arg1 = m ((c : Thread nD τ).loc main_arg1) :=
  ((A_eq1 (V5 m ρ) c 3).symm.trans (((dat1 (V5 m ρ) c).arrAt_in 3 rfl _).symm.trans (W6_arr m ρ c 3).symm)).trans
    (W6_main_arg1 m ρ c)
theorem V5_a (c : Dev nD) : V5 m ρ c main_arg2 = m ((c : Thread nD τ).loc main_arg2) :=
  ((A_eq1 (V5 m ρ) c 4).symm.trans (((dat1 (V5 m ρ) c).arrAt_in 4 rfl _).symm.trans (W6_arr m ρ c 4).symm)).trans
    (W6_main_arg2 m ρ c)

/-! ## The result -/

/-- The layer's output as a function of the five arguments. -/
def layer (x r : (⟨S50000x96, .f32⟩ : BufTy).Contents (Elt Ideal)) (a : (⟨S1x192, .f32⟩ : BufTy).Contents (Elt Ideal))
    (src dst : (⟨S800000, .i32⟩ : BufTy).Contents (Elt Ideal)) : (⟨S50000x96, .f32⟩ : BufTy).Contents (Elt Ideal) :=
  GraphGate.gateRows (R := 50000) x (aggregate (GraphGate.scaleRows (R := 50000) x (normCol dst)) src dst) (normCol dst) r a

/-- What the last boundary's contents hold at the result buffer. -/
theorem result_eq (c : Dev nD) : W6 m ρ c (Proc.devRef .tc main_v19)
    = layer (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 5).trans ((Regions.final1 (V5 m ρ) c).trans ?_)
  rw [V5_x, V5_g, V5_n, V5_r, V5_a]
  rfl

end Cert.KernelIdeal.Result

end
-- ==== Proof.RefValue.lean ====
/-
  The reference program's result array as the same function of the five arguments.

  The reference computes the normaliser column and the aggregation with the operations the kernel program uses on the host
  (kept here as the opaque `normCol` and `aggregate`), scales the features by a host multiply, and forms the gate from ONE
  product of the joined array `[x | h]` (192 columns) with the weight column: entry `i` of that product is the sum over
  192 columns, whose first 96 terms are the feature row against the first 96 weights and whose last 96 terms are the
  normalised aggregated row against the last 96 — the two lane sums of the kernel, by the split of a finite sum.  The
  logistic is spelt `1 / (1 + exp(-s))`, which on the extended reals is the logistic function's definition, and the literal
  `1.0` is the real number one.
-/
import proofs.«160684_j26834955666032_1_alg».proof.Proof.Gen.ReferenceIdeal.Read
import proofs.«160684_j26834955666032_1_alg».proof.Proof.GateSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The normaliser column: the in-degree of every node (ones added at the destination indices), clamped below at one,
    to the power `-1/2`, as a column. -/
def normCol (dst : (⟨S800000, .i32⟩ : BufTy).Contents (Elt Ideal)) : (⟨S50000x1, .f32⟩ : BufTy).Contents (Elt Ideal) :=
  broadcastInDim S50000x1 ![0] bcast_S50000_S50000x1_0
    (Host.powf
      (maximumf (broadcastInDim S50000 ![] bcast_S_S50000 (constant (F := Ideal) S_ .f32 0x3F800000#32))
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32))))
      (broadcastInDim S50000 ![] bcast_S_S50000 (constant (F := Ideal) S_ .f32 0xBF000000#32)))

/-- The aggregation: the rows of `h` gathered at the (wrapped) source indices and added into the destination rows of a
    zero array. -/
def aggregate (h : (⟨S50000x96, .f32⟩ : BufTy).Contents (Elt Ideal)) (src dst : (⟨S800000, .i32⟩ : BufTy).Contents (Elt Ideal)) :
    (⟨S50000x96, .f32⟩ : BufTy).Contents (Elt Ideal) :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (Host.gather gather_S50000x96_S800000x1_S800000x96_1_0_n_n_0_1_196 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The layer's output as a function of the five arguments. -/
def layer (x r : (⟨S50000x96, .f32⟩ : BufTy).Contents (Elt Ideal)) (a : (⟨S1x192, .f32⟩ : BufTy).Contents (Elt Ideal))
    (src dst : (⟨S800000, .i32⟩ : BufTy).Contents (Elt Ideal)) : (⟨S50000x96, .f32⟩ : BufTy).Contents (Elt Ideal) :=
  GraphGate.gateRows (R := 50000) x (aggregate (GraphGate.scaleRows (R := 50000) x (normCol dst)) src dst) (normCol dst) r a

variable (x0 x1 : (⟨S50000x96, .f32⟩ : BufTy).Contents (Elt Ideal)) (x2 : (⟨S1x192, .f32⟩ : BufTy).Contents (Elt Ideal))
  (x3 x4 : (⟨S800000, .i32⟩ : BufTy).Contents (Elt Ideal))

/-- The normaliser stage is `normCol`. -/
theorem norm_eq : val_main_v7 (F := Ideal) x4 = normCol x4 := rfl

/-- A column read at the row of `(p, q)`. -/
theorem col_idx (p : Fin 50000) (q : Fin 96) : idx_main_v8 (ix2 p q) = (ix2 p (0 : Fin 1) : S50000x1.Idx) := by
  funext a
  match a with
  | ⟨0, _⟩ => rfl
  | ⟨1, _⟩ => rfl

/-- The host's scaled features are the scaled rows. -/
theorem scaled_eq : val_main_v9 (F := Ideal) x0 x4 = GraphGate.scaleRows (R := 50000) x0 (normCol x4) := by
  funext i
  obtain ⟨p, q, rfl⟩ : ∃ (p : Fin 50000) (q : Fin 96), i = ix2 p q := ⟨i 0, i 1, eq_ix2 i⟩
  rw [GraphGate.scaleRows_ix2, val_main_v9_apply, val_main_v8_apply, norm_eq, col_idx]
  rfl

/-- The host's aggregation stage is `aggregate` of the scaled features. -/
theorem agg_eq : val_main_v19 (F := Ideal) x0 x3 x4 = aggregate (val_main_v9 (F := Ideal) x0 x4) x3 x4 := rfl

/-- The normalised aggregated rows, entry by entry. -/
theorem hrow (p : Fin 50000) (q : Fin 96) :
    val_main_v21 (F := Ideal) x0 x3 x4 (ix2 p q)
      = val_main_v19 (F := Ideal) x0 x3 x4 (ix2 p q) * val_main_v7 (F := Ideal) x4 (ix2 p (0 : Fin 1)) := by
  rw [val_main_v21_apply, val_main_v20_apply]
  show _ * val_main_v7 (F := Ideal) x4 (idx_main_v8 (ix2 p q)) = _
  rw [col_idx]

/-- A column of the joined array among the first 96 is the feature column. -/
theorem joined_lo (p : Fin 50000) (k : Fin 96) :
    val_main_v22 (F := Ideal) x0 x3 x4 (lidx_main_v24 (ix2 p (0 : Fin 1)) ⟨k.val, by have := k.isLt; omega⟩) = x0 (ix2 p k) := by
  unfold val_main_v22
  refine concatenate_pair_apply_left (t := S50000x192) (s₁ := S50000x96) (s₂ := S50000x96) (1 : Fin 2) x0
    (val_main_v21 (F := Ideal) x0 x3 x4) concatenates_S50000x96_S50000x96_S50000x192_d1 _ rfl (ix2 p k) fun b => ?_
  match b with
  | ⟨0, _⟩ => rfl
  | ⟨1, _⟩ => rfl

/-- A column of the joined array among the last 96 is the normalised aggregated column. -/
theorem joined_hi (p : Fin 50000) (k : Fin 96) :
    val_main_v22 (F := Ideal) x0 x3 x4 (lidx_main_v24 (ix2 p (0 : Fin 1)) ⟨96 + k.val, by have := k.isLt; omega⟩)
      = val_main_v21 (F := Ideal) x0 x3 x4 (ix2 p k) := by
  unfold val_main_v22
  refine concatenate_pair_apply_right (t := S50000x192) (s₁ := S50000x96) (s₂ := S50000x96) (1 : Fin 2) x0
    (val_main_v21 (F := Ideal) x0 x3 x4) concatenates_S50000x96_S50000x96_S50000x192_d1 _ rfl rfl (ix2 p k) (fun b hb => ?_) ?_
  · match b with
    | ⟨0, _⟩ => rfl
    | ⟨1, _⟩ => exact absurd rfl hb
  · show k.val + 96 = 96 + k.val
    omega

/-- The weight column's entry `k` is the weight row's entry `k`. -/
theorem weight_idx (p : Fin 50000) (k : Fin 192) :
    val_main_v23 (F := Ideal) x2 (ridx_main_v24 (ix2 p (0 : Fin 1)) k) = x2 (ix2 (0 : Fin 1) k) := by
  rw [val_main_v23_apply]
  refine congrArg x2 ?_
  funext a
  match a with
  | ⟨0, _⟩ => rfl
  | ⟨1, _⟩ => rfl

/-- The product of the joined array with the weight column, at row `p`, is the gate's logit. -/
theorem dot_eq (p : Fin 50000) :
    val_main_v24 (F := Ideal) x0 x2 x3 x4 (ix2 p (0 : Fin 1))
      = GraphGate.logit (R := 50000) x0 (val_main_v19 (F := Ideal) x0 x3 x4) (val_main_v7 (F := Ideal) x4) x2 p := by
  rw [val_main_v24_apply, GraphGate.sum_192_split]
  unfold GraphGate.logit
  refine congrArg₂ (· + ·) (Finset.sum_congr rfl fun k _ => ?_) (Finset.sum_congr rfl fun k _ => ?_)
  · rw [joined_lo, weight_idx]
  · rw [joined_hi, weight_idx, hrow]

/-- The literal `1.0` is the real number one. -/
theorem one_f32 : Ideal.ofBits .f32 0x3F800000#32 = 1 := by
  simp [Ideal.ofBits, Ideal.ieee, -EReal.coe_mul]; norm_num

/-- The reference's last stage is the gated residual rows of its own stages. -/
theorem gated_eq : val_main_v33 (F := Ideal) x0 x1 x2 x3 x4
    = GraphGate.gateRows (R := 50000) x0 (val_main_v19 (F := Ideal) x0 x3 x4) (val_main_v7 (F := Ideal) x4) x1 x2 := by
  funext i
  obtain ⟨p, q, rfl⟩ : ∃ (p : Fin 50000) (q : Fin 96), i = ix2 p q := ⟨i 0, i 1, eq_ix2 i⟩
  rw [GraphGate.gateRows_ix2, val_main_v33_apply, val_main_v32_apply, val_main_v31_apply]
  show (val_main_v30 (F := Ideal) x0 x2 x3 x4 (idx_main_v8 (ix2 p q)) * _) + _ = _
  rw [col_idx, hrow, val_main_v30_apply, val_main_v29_apply, val_main_cst_6_apply, val_main_v28_apply, val_main_v27_apply,
    val_main_cst_5_apply, val_main_v26_apply, val_main_v25_apply, dot_eq]
  show Ideal.div (Ideal.ofBits .f32 0x3F800000#32) (Ideal.ofBits .f32 0x3F800000#32 + Ideal.exp (-_)) * _ + _ = _
  rw [one_f32]
  rfl

/-- So the reference's result is the layer of its arguments. -/
theorem result_eq : val_main_v33 (F := Ideal) x0 x1 x2 x3 x4 = layer x0 x1 x2 x3 x4 := by
  rw [gated_eq, agg_eq, scaled_eq, norm_eq]
  rfl

end Cert.ReferenceIdeal.RefValue

end
-- ==== Proof.lean ====
/-
  A degree-normalised graph-convolution layer with an attention gate and a residual, certified against its reference:
  two row-blocked kernel regions around a host gather and scatter-add, against one host program.

  On the extended reals both programs compute, for every node `i` and lane `j`,
      σ( Σ_k x[i,k]·a[k] + Σ_k h[i,k]·a[96+k] ) · h[i,j] + r[i,j],      h = n ⊙ aggregate(n ⊙ x),   n = max(1, deg)^(-1/2),
  where the normalisers `n` and the aggregation over the edges are the same host operations in both programs.  The kernel
  forms the logit as two lane sums; the reference as one product of the joined array `[x | h]` with the weight column: a sum of
  192 terms is the sum of its first and last 96, on any commutative monoid, so no finiteness of the inputs is used.  The
  kernel's `tpu.logistic` and the reference's `1 / (1 + exp(-s))` are one function on the extended reals by definition.

  The frames of the two kernel programs are the generated ones; the reference's frame is its generated run with the result
  dropped; the idealisation rewrote nothing, so `preserves` holds trivially.
-/
import proofs.«160684_j26834955666032_1_alg».proof.Defs
import proofs.«160684_j26834955666032_1_alg».proof.Proof.Gen.Kernel
import proofs.«160684_j26834955666032_1_alg».proof.Proof.Gen.Kernel.Skeleton
import proofs.«160684_j26834955666032_1_alg».proof.Proof.Gen.Kernel.Launch
import proofs.«160684_j26834955666032_1_alg».proof.Proof.Gen.Kernel.Points
import proofs.«160684_j26834955666032_1_alg».proof.Proof.Gen.Kernel.Frame
import proofs.«160684_j26834955666032_1_alg».proof.Proof.Gen.KernelIdeal
import proofs.«160684_j26834955666032_1_alg».proof.Proof.Gen.KernelIdeal.Skeleton
import proofs.«160684_j26834955666032_1_alg».proof.Proof.Gen.KernelIdeal.Launch
import proofs.«160684_j26834955666032_1_alg».proof.Proof.Gen.KernelIdeal.Points
import proofs.«160684_j26834955666032_1_alg».proof.Proof.Gen.KernelIdeal.Frame
import proofs.«160684_j26834955666032_1_alg».proof.Proof.Gen.ReferenceIdeal
import proofs.«160684_j26834955666032_1_alg».proof.Proof.Gen.Pre_finite_inputs
import proofs.«160684_j26834955666032_1_alg».proof.Proof.Gen.ReferenceIdeal.Run
import proofs.«160684_j26834955666032_1_alg».proof.Proof.Gen.ReferenceIdeal.Read
import proofs.«160684_j26834955666032_1_alg».proof.Proof.KernelLaunch
import proofs.«160684_j26834955666032_1_alg».proof.Proof.KernelValue
import proofs.«160684_j26834955666032_1_alg».proof.Proof.RefValue
import Idealize.ShloMosaic.Adequacy
import Idealize.ShloMosaic.Init

noncomputable section

namespace Cert.Proof

open Idealize.ShloMosaic Idealize.SL.Sem

/-- The two programs' host stretches are the same operations, so the layer function read off the kernel program is the one
    read off the reference. -/
theorem layer_same : Cert.KernelIdeal.Result.layer = Cert.ReferenceIdeal.RefValue.layer := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer of the arguments in their result arrays. -/
theorem algebraic : Cert.algebraic_KernelIdeal_ReferenceIdeal := by
  intro m ρ m' ρ' _ hagree
  refine ⟨fun c => Cert.KernelIdeal.Result.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Result.result_eq m ρ c), (h c).2⟩)
      (Cert.KernelIdeal.Launched.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hagree c
    rw [Cert.ReferenceIdeal.Read.val_main_v33_eq, Cert.ReferenceIdeal.RefValue.result_eq, h0, h1, h2, h3, h4, layer_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
